-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x256x256 : Shape := ⟨3, ![1024, 256, 256]⟩
abbrev S16x64x8 : Shape := ⟨3, ![16, 64, 8]⟩
abbrev S16x256x2 : Shape := ⟨3, ![16, 256, 2]⟩
abbrev S16 : Shape := ⟨1, ![16]⟩
abbrev S_ : Shape := ⟨0, ![]⟩

class Facts : Prop where
  bcast_S_S1024x256x256 : S_.BroadcastsInDim S1024x256x256 (![] : Fin 0 → Fin S1024x256x256.rank)
  reducesTo_S1024x256x256_S_d0_1_2 : S1024x256x256.ReducesTo [0, 1, 2] S_
  h_S_ : 0 < S_.numel
  bcast_S_S16x64x8 : S_.BroadcastsInDim S16x64x8 (![] : Fin 0 → Fin S16x64x8.rank)
  reducesTo_S16x64x8_S_d0_1_2 : S16x64x8.ReducesTo [0, 1, 2] S_
  bcast_S_S16x256x2 : S_.BroadcastsInDim S16x256x2 (![] : Fin 0 → Fin S16x256x2.rank)
  reducesTo_S16x256x2_S_d0_1_2 : S16x256x2.ReducesTo [0, 1, 2] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S16 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S1024x256x256 .f32) (main_arg1 : FVec F S16x64x8 .f32) (main_arg2 : FVec F S16x256x2 .f32) (main_arg3 : FVec F S16 .f32) (main_arg4 : FVec F S16 .f32) : IVec S_ 1 :=
  let main_v0 : FVec F S1024x256x256 .f32 := Host.absf main_arg0
  let main_cst : FVec F S_ .f32 := constant S_ .f32 0x7F800000#32
  let main_v1 : FVec F S1024x256x256 .f32 := broadcastInDim S1024x256x256 ![] bcast_S_S1024x256x256 main_cst
  let main_v2 : IVec S1024x256x256 1 := cmpf .olt main_v0 main_v1
  let main_c : IVec S_ 1 := constantI S_ 1 1#1
  let main_v3 : IVec S_ 1 := (fun x v => Host.reduce IntOp.andi x v reducesTo_S1024x256x256_S_d0_1_2 h_S_) main_v2 main_c
  let main_v4 : FVec F S16x64x8 .f32 := Host.absf main_arg1
  let main_cst_0 : FVec F S_ .f32 := constant S_ .f32 0x7F800000#32
  let main_v5 : FVec F S16x64x8 .f32 := broadcastInDim S16x64x8 ![] bcast_S_S16x64x8 main_cst_0
  let main_v6 : IVec S16x64x8 1 := cmpf .olt main_v4 main_v5
  let main_c_1 : IVec S_ 1 := constantI S_ 1 1#1
  let main_v7 : IVec S_ 1 := (fun x v => Host.reduce IntOp.andi x v reducesTo_S16x64x8_S_d0_1_2 h_S_) main_v6 main_c_1
  let main_v8 : IVec S_ 1 := andi main_v3 main_v7
  let main_v9 : FVec F S16x256x2 .f32 := Host.absf main_arg2
  let main_cst_2 : FVec F S_ .f32 := constant S_ .f32 0x7F800000#32
  let main_v10 : FVec F S16x256x2 .f32 := broadcastInDim S16x256x2 ![] bcast_S_S16x256x2 main_cst_2
  let main_v11 : IVec S16x256x2 1 := cmpf .olt main_v9 main_v10
  let main_c_3 : IVec S_ 1 := constantI S_ 1 1#1
  let main_v12 : IVec S_ 1 := (fun x v => Host.reduce IntOp.andi x v reducesTo_S16x256x2_S_d0_1_2 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_v13 main_v16
-- ==== Kernel.lean ====
abbrev S1024x256x256 : Shape := ⟨3, ![1024, 256, 256]⟩
abbrev S16x64x8 : Shape := ⟨3, ![16, 64, 8]⟩
abbrev S16x256x2 : Shape := ⟨3, ![16, 256, 2]⟩
abbrev S16 : Shape := ⟨1, ![16]⟩
abbrev S1024x65536 : Shape := ⟨2, ![1024, 65536]⟩
abbrev S16x64x4 : Shape := ⟨3, ![16, 64, 4]⟩
abbrev S16x64x64 : Shape := ⟨3, ![16, 64, 64]⟩
abbrev S1x16x1x64x1x64 : Shape := ⟨6, ![1, 16, 1, 64, 1, 64]⟩
abbrev S1x16x4x64x4x64 : Shape := ⟨6, ![1, 16, 4, 64, 4, 64]⟩
abbrev S16x256x256 : Shape := ⟨3, ![16, 256, 256]⟩
abbrev S16x65536 : Shape := ⟨2, ![16, 65536]⟩
abbrev S16x256x1 : Shape := ⟨3, ![16, 256, 1]⟩
abbrev S1 : Shape := ⟨1, ![1]⟩
abbrev S_ : Shape := ⟨0, ![]⟩
abbrev S65536x16 : Shape := ⟨2, ![65536, 16]⟩
abbrev S1x16 : Shape := ⟨2, ![1, 16]⟩
abbrev S1024x16 : Shape := ⟨2, ![1024, 16]⟩
abbrev S512x4096 : Shape := ⟨2, ![512, 4096]⟩
abbrev S4096x16 : Shape := ⟨2, ![4096, 16]⟩
abbrev S512x16 : Shape := ⟨2, ![512, 16]⟩
abbrev S512 : Shape := ⟨1, ![512]⟩
abbrev S512x1 : Shape := ⟨2, ![512, 1]⟩

abbrev nBuf : Space → Nat
  | .hbm => 39
  | .vmem => 8
  | .smem => 0
  | _ => 0

abbrev bufTy : (tb : Table) → Fin (tcTables nBuf tb) → BufTy
  | .hbm, ⟨0, _⟩ => ⟨S1024x256x256, .f32⟩
  | .hbm, ⟨1, _⟩ => ⟨S16x64x8, .f32⟩
  | .hbm, ⟨2, _⟩ => ⟨S16x256x2, .f32⟩
  | .hbm, ⟨3, _⟩ => ⟨S16, .f32⟩
  | .hbm, ⟨4, _⟩ => ⟨S16, .f32⟩
  | .hbm, ⟨5, _⟩ => ⟨S1024x65536, .f32⟩
  | .hbm, ⟨6, _⟩ => ⟨S16x64x4, .f32⟩
  | .hbm, ⟨7, _⟩ => ⟨S16x64x4, .f32⟩
  | .hbm, ⟨8, _⟩ => ⟨S16x64x64, .f32⟩
  | .hbm, ⟨9, _⟩ => ⟨S16x64x64, .f32⟩
  | .hbm, ⟨10, _⟩ => ⟨S16x64x64, .f32⟩
  | .hbm, ⟨11, _⟩ => ⟨S1x16x1x64x1x64, .f32⟩
  | .hbm, ⟨12, _⟩ => ⟨S1x16x4x64x4x64, .f32⟩
  | .hbm, ⟨13, _⟩ => ⟨S16x256x256, .f32⟩
  | .hbm, ⟨14, _⟩ => ⟨S16x65536, .f32⟩
  | .hbm, ⟨15, _⟩ => ⟨S16x256x1, .f32⟩
  | .hbm, ⟨16, _⟩ => ⟨S16x256x1, .f32⟩
  | .hbm, ⟨17, _⟩ => ⟨S16x256x256, .f32⟩
  | .hbm, ⟨18, _⟩ => ⟨S16x256x256, .f32⟩
  | .hbm, ⟨19, _⟩ => ⟨S16x256x256, .f32⟩
  | .hbm, ⟨20, _⟩ => ⟨S16x65536, .f32⟩
  | .hbm, ⟨21, _⟩ => ⟨S1, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S16x65536, .f32⟩
  | .hbm, ⟨30, _⟩ => ⟨S16x65536, .f32⟩
  | .hbm, ⟨31, _⟩ => ⟨S_, .f32⟩
  | .hbm, ⟨32, _⟩ => ⟨S_, .f32⟩
  | .hbm, ⟨33, _⟩ => ⟨S16x65536, .f32⟩
  | .hbm, ⟨34, _⟩ => ⟨S16x65536, .f32⟩
  | .hbm, ⟨35, _⟩ => ⟨S16x65536, .f32⟩
  | .hbm, ⟨36, _⟩ => ⟨S65536x16, .f32⟩
  | .hbm, ⟨37, _⟩ => ⟨S1x16, .f32⟩
  | .hbm, ⟨38, _⟩ => ⟨S1024x16, .f32⟩
  | .local _ .vmem, ⟨0, _⟩ => ⟨S512x4096, .f32⟩
  | .local _ .vmem, ⟨1, _⟩ => ⟨S512x4096, .f32⟩
  | .local _ .vmem, ⟨2, _⟩ => ⟨S4096x16, .f32⟩
  | .local _ .vmem, ⟨3, _⟩ => ⟨S4096x16, .f32⟩
  | .local _ .vmem, ⟨4, _⟩ => ⟨S1x16, .f32⟩
  | .local _ .vmem, ⟨5, _⟩ => ⟨S512x16, .f32⟩
  | .local _ .vmem, ⟨6, _⟩ => ⟨S512x16, .f32⟩
  | .local _ .vmem, ⟨7, _⟩ => ⟨S512x16, .f32⟩
  | _, _ => ⟨S1024x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst : Ref sig .tc := ⟨.hbm, 25, rfl⟩
abbrev main_v20 : Ref sig .tc := ⟨.hbm, 26, rfl⟩
abbrev main_cst_0 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_1 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v15 : BitVec 1 := Scalar.cmpi .eq arg1 c15_i32
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S1024x256x256_S1024x65536 : S1024x256x256.ShapeCasts S1024x65536
  slices_S16x64x8_S16x64x4_0_0_4 : S16x64x8.Slices ![0, 0, 4] S16x64x4
  slices_S16x64x8_S16x64x4_0_0_0 : S16x64x8.Slices ![0, 0, 0] S16x64x4
  shapeCasts_S16x64x64_S1x16x1x64x1x64 : S16x64x64.ShapeCasts S1x16x1x64x1x64
  bcast_S1x16x1x64x1x64_S1x16x4x64x4x64_0_1_2_3_4_5 : S1x16x1x64x1x64.BroadcastsInDim S1x16x4x64x4x64 (![0, 1, 2, 3, 4, 5] : Fin 6 → Fin S1x16x4x64x4x64.rank)
  shapeCasts_S1x16x4x64x4x64_S16x256x256 : S1x16x4x64x4x64.ShapeCasts S16x256x256
  shapeCasts_S16x256x256_S16x65536 : S16x256x256.ShapeCasts S16x65536
  slices_S16x256x2_S16x256x1_0_0_1 : S16x256x2.Slices ![0, 0, 1] S16x256x1
  slices_S16x256x2_S16x256x1_0_0_0 : S16x256x2.Slices ![0, 0, 0] S16x256x1
  slices_S16_S1_0 : S16.Slices ![0] S1
  shapeCasts_S1_S_ : S1.ShapeCasts S_
  bcast_S_S16x65536 : S_.BroadcastsInDim S16x65536 (![] : Fin 0 → Fin S16x65536.rank)
  transposes_S16x65536_S65536x16_1_0 : S16x65536.Transposes [1, 0] S65536x16
  shapeCasts_S16_S1x16 : S16.ShapeCasts S1x16
  inb_S512x16_S512x16_0_0 : ∀ a, (![0, 0] : Fin 2 → Nat) a + S512x16.size a ≤ S512x16.size a
  h_S512x16 : 0 < S512x16.numel
  shapeCasts_S512x16_S512x16 : S512x16.ShapeCasts S512x16
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  bitsLt_bf16_f32 : FTy.bits .bf16 < FTy.bits .f32
  inb_S4096x16_S4096x16_0_0 : ∀ a, (![0, 0] : Fin 2 → Nat) a + S4096x16.size a ≤ S4096x16.size a
  h_S4096x16 : 0 < S4096x16.numel
  shapeCasts_S4096x16_S4096x16 : S4096x16.ShapeCasts S4096x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S512x16 : S1x16.Broadcasts S512x16
  reduces_S512x16_S512 : S512x16.Reduces [1] S512
  shapeCasts_S512_S512x1 : S512.ShapeCasts S512x1
  broadcasts_S512x1_S512x16 : S512x1.Broadcasts S512x16
  dot_S16x64x4_S16x64x4_S16x64x64_2_2_1_1_0_0_wf : DotDims.WF S16x64x4 S16x64x4 S16x64x64 [2] [2] [1] [1] [0] [0]
  dot_S16x256x1_S16x256x1_S16x256x256_2_2_1_1_0_0_wf : DotDims.WF S16x256x1 S16x256x1 S16x256x256 [2] [2] [1] [1] [0] [0]
  dot_S512x4096_S4096x16_S512x16_1_0_0_1_n_n_wf : DotDims.WF S512x4096 S4096x16 S512x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S1024x65536.size a
  hwx0_0 : ∀ i : grid0.Coords, EltTy.bits .f32 = 32 ∨ (Rect.block (s := S1024x65536) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x16.size a ≤ S65536x16.size a
  hwx0_1 : ∀ i : grid0.Coords, EltTy.bits .f32 = 32 ∨ (Rect.block (s := S65536x16) S4096x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x16.size a ≤ S1024x16.size a
  hwx0_3 : ∀ i : grid0.Coords, EltTy.bits .f32 = 32 ∨ (Rect.block (s := S1024x16) S512x16.size (cc0_transform_3 i) (hinb0_3 i)).WholeWords (EltTy.packing .f32)

variable [Facts₀]

def dot_S16x64x4_S16x64x4_S16x64x64_2_2_1_1_0_0 : DotDims S16x64x4 S16x64x4 S16x64x64 where
  lhsContracting := [2]
  rhsContracting := [2]
  lhsNonContracting := [1]
  rhsNonContracting := [1]
  lhsBatch := [0]
  rhsBatch := [0]
  wf := dot_S16x64x4_S16x64x4_S16x64x64_2_2_1_1_0_0_wf
def dot_S16x256x1_S16x256x1_S16x256x256_2_2_1_1_0_0 : DotDims S16x256x1 S16x256x1 S16x256x256 where
  lhsContracting := [2]
  rhsContracting := [2]
  lhsNonContracting := [1]
  rhsNonContracting := [1]
  lhsBatch := [0]
  rhsBatch := [0]
  wf := dot_S16x256x1_S16x256x1_S16x256x256_2_2_1_1_0_0_wf
def dot_S512x4096_S4096x16_S512x16_1_0_0_1_n_n : DotDims S512x4096 S4096x16 S512x16 where
  lhsContracting := [1]
  rhsContracting := [0]
  lhsNonContracting := [0]
  rhsNonContracting := [1]
  lhsBatch := []
  rhsBatch := []
  wf := dot_S512x4096_S4096x16_S512x16_1_0_0_1_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S4096x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S512x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S1024x256x256 : Shape := ⟨3, ![1024, 256, 256]⟩
abbrev S16x64x8 : Shape := ⟨3, ![16, 64, 8]⟩
abbrev S16x256x2 : Shape := ⟨3, ![16, 256, 2]⟩
abbrev S16 : Shape := ⟨1, ![16]⟩
abbrev S1024x65536 : Shape := ⟨2, ![1024, 65536]⟩
abbrev S16x64x4 : Shape := ⟨3, ![16, 64, 4]⟩
abbrev S16x64x64 : Shape := ⟨3, ![16, 64, 64]⟩
abbrev S1x16x1x64x1x64 : Shape := ⟨6, ![1, 16, 1, 64, 1, 64]⟩
abbrev S1x16x4x64x4x64 : Shape := ⟨6, ![1, 16, 4, 64, 4, 64]⟩
abbrev S16x256x256 : Shape := ⟨3, ![16, 256, 256]⟩
abbrev S16x65536 : Shape := ⟨2, ![16, 65536]⟩
abbrev S16x256x1 : Shape := ⟨3, ![16, 256, 1]⟩
abbrev S1 : Shape := ⟨1, ![1]⟩
abbrev S_ : Shape := ⟨0, ![]⟩
abbrev S65536x16 : Shape := ⟨2, ![65536, 16]⟩
abbrev S1024x16 : Shape := ⟨2, ![1024, 16]⟩
abbrev S1x16 : Shape := ⟨2, ![1, 16]⟩
abbrev S1024 : Shape := ⟨1, ![1024]⟩
abbrev S1024x1 : Shape := ⟨2, ![1024, 1]⟩

abbrev nBuf : Space → Nat
  | .hbm => 55
  | .vmem => 0
  | .smem => 0
  | _ => 0

abbrev bufTy : (tb : Table) → Fin (tcTables nBuf tb) → BufTy
  | .hbm, ⟨0, _⟩ => ⟨S1024x256x256, .f32⟩
  | .hbm, ⟨1, _⟩ => ⟨S16x64x8, .f32⟩
  | .hbm, ⟨2, _⟩ => ⟨S16x256x2, .f32⟩
  | .hbm, ⟨3, _⟩ => ⟨S16, .f32⟩
  | .hbm, ⟨4, _⟩ => ⟨S16, .f32⟩
  | .hbm, ⟨5, _⟩ => ⟨S1024x65536, .f32⟩
  | .hbm, ⟨6, _⟩ => ⟨S16x64x4, .f32⟩
  | .hbm, ⟨7, _⟩ => ⟨S16x64x4, .f32⟩
  | .hbm, ⟨8, _⟩ => ⟨S16x64x64, .f32⟩
  | .hbm, ⟨9, _⟩ => ⟨S16x64x64, .f32⟩
  | .hbm, ⟨10, _⟩ => ⟨S16x64x64, .f32⟩
  | .hbm, ⟨11, _⟩ => ⟨S1x16x1x64x1x64, .f32⟩
  | .hbm, ⟨12, _⟩ => ⟨S1x16x4x64x4x64, .f32⟩
  | .hbm, ⟨13, _⟩ => ⟨S16x256x256, .f32⟩
  | .hbm, ⟨14, _⟩ => ⟨S16x65536, .f32⟩
  | .hbm, ⟨15, _⟩ => ⟨S16x256x1, .f32⟩
  | .hbm, ⟨16, _⟩ => ⟨S16x256x1, .f32⟩
  | .hbm, ⟨17, _⟩ => ⟨S16x256x256, .f32⟩
  | .hbm, ⟨18, _⟩ => ⟨S16x256x256, .f32⟩
  | .hbm, ⟨19, _⟩ => ⟨S16x256x256, .f32⟩
  | .hbm, ⟨20, _⟩ => ⟨S16x65536, .f32⟩
  | .hbm, ⟨21, _⟩ => ⟨S1, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S16x65536, .f32⟩
  | .hbm, ⟨30, _⟩ => ⟨S16x65536, .f32⟩
  | .hbm, ⟨31, _⟩ => ⟨S_, .f32⟩
  | .hbm, ⟨32, _⟩ => ⟨S_, .f32⟩
  | .hbm, ⟨33, _⟩ => ⟨S16x65536, .f32⟩
  | .hbm, ⟨34, _⟩ => ⟨S16x65536, .f32⟩
  | .hbm, ⟨35, _⟩ => ⟨S16x65536, .f32⟩
  | .hbm, ⟨36, _⟩ => ⟨S65536x16, .f32⟩
  | .hbm, ⟨37, _⟩ => ⟨S1024x16, .f32⟩
  | .hbm, ⟨38, _⟩ => ⟨S1x16, .f32⟩
  | .hbm, ⟨39, _⟩ => ⟨S1024x16, .f32⟩
  | .hbm, ⟨40, _⟩ => ⟨S1024x16, .f32⟩
  | .hbm, ⟨41, _⟩ => ⟨S_, .f32⟩
  | .hbm, ⟨42, _⟩ => ⟨S1024, .f32⟩
  | .hbm, ⟨43, _⟩ => ⟨S_, .f32⟩
  | .hbm, ⟨44, _⟩ => ⟨S1024, .f32⟩
  | .hbm, ⟨45, _⟩ => ⟨S1024, .f32⟩
  | .hbm, ⟨46, _⟩ => ⟨S1024x1, .f32⟩
  | .hbm, ⟨47, _⟩ => ⟨S1024x16, .f32⟩
  | .hbm, ⟨48, _⟩ => ⟨S1024x16, .f32⟩
  | .hbm, ⟨49, _⟩ => ⟨S1024x16, .f32⟩
  | .hbm, ⟨50, _⟩ => ⟨S_, .f32⟩
  | .hbm, ⟨51, _⟩ => ⟨S1024, .f32⟩
  | .hbm, ⟨52, _⟩ => ⟨S1024x1, .f32⟩
  | .hbm, ⟨53, _⟩ => ⟨S1024x16, .f32⟩
  | .hbm, ⟨54, _⟩ => ⟨S1024x16, .f32⟩
  | _, _ => ⟨S1024x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst : Ref sig .tc := ⟨.hbm, 25, rfl⟩
abbrev main_v20 : Ref sig .tc := ⟨.hbm, 26, rfl⟩
abbrev main_cst_0 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_1 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_2 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_4 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩

abbrev nD : Nat := 1
abbrev τ : Topo := Topo.v7x

variable {F : FTy → Type} [FloatOps F]

class Facts₀ : Prop where
  shapeCasts_S1024x256x256_S1024x65536 : S1024x256x256.ShapeCasts S1024x65536
  slices_S16x64x8_S16x64x4_0_0_4 : S16x64x8.Slices ![0, 0, 4] S16x64x4
  slices_S16x64x8_S16x64x4_0_0_0 : S16x64x8.Slices ![0, 0, 0] S16x64x4
  shapeCasts_S16x64x64_S1x16x1x64x1x64 : S16x64x64.ShapeCasts S1x16x1x64x1x64
  bcast_S1x16x1x64x1x64_S1x16x4x64x4x64_0_1_2_3_4_5 : S1x16x1x64x1x64.BroadcastsInDim S1x16x4x64x4x64 (![0, 1, 2, 3, 4, 5] : Fin 6 → Fin S1x16x4x64x4x64.rank)
  shapeCasts_S1x16x4x64x4x64_S16x256x256 : S1x16x4x64x4x64.ShapeCasts S16x256x256
  shapeCasts_S16x256x256_S16x65536 : S16x256x256.ShapeCasts S16x65536
  slices_S16x256x2_S16x256x1_0_0_1 : S16x256x2.Slices ![0, 0, 1] S16x256x1
  slices_S16x256x2_S16x256x1_0_0_0 : S16x256x2.Slices ![0, 0, 0] S16x256x1
  slices_S16_S1_0 : S16.Slices ![0] S1
  shapeCasts_S1_S_ : S1.ShapeCasts S_
  bcast_S_S16x65536 : S_.BroadcastsInDim S16x65536 (![] : Fin 0 → Fin S16x65536.rank)
  transposes_S16x65536_S65536x16_1_0 : S16x65536.Transposes [1, 0] S65536x16
  bcast_S16_S1x16_1 : S16.BroadcastsInDim S1x16 (![1] : Fin 1 → Fin S1x16.rank)
  bcast_S1x16_S1024x16_0_1 : S1x16.BroadcastsInDim S1024x16 (![0, 1] : Fin 2 → Fin S1024x16.rank)
  reducesTo_S1024x16_S1024_d1 : S1024x16.ReducesTo [1] S1024
  h_S_ : 0 < S_.numel
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x16_0_1 : S1024x1.BroadcastsInDim S1024x16 (![0, 1] : Fin 2 → Fin S1024x16.rank)
  dot_S16x64x4_S16x64x4_S16x64x64_2_2_1_1_0_0_wf : DotDims.WF S16x64x4 S16x64x4 S16x64x64 [2] [2] [1] [1] [0] [0]
  dot_S16x256x1_S16x256x1_S16x256x256_2_2_1_1_0_0_wf : DotDims.WF S16x256x1 S16x256x1 S16x256x256 [2] [2] [1] [1] [0] [0]
  dot_S1024x65536_S65536x16_S1024x16_1_0_0_1_n_n_wf : DotDims.WF S1024x65536 S65536x16 S1024x16 [1] [0] [0] [1] [] []

variable [Facts₀]

def dot_S16x64x4_S16x64x4_S16x64x64_2_2_1_1_0_0 : DotDims S16x64x4 S16x64x4 S16x64x64 where
  lhsContracting := [2]
  rhsContracting := [2]
  lhsNonContracting := [1]
  rhsNonContracting := [1]
  lhsBatch := [0]
  rhsBatch := [0]
  wf := dot_S16x64x4_S16x64x4_S16x64x64_2_2_1_1_0_0_wf
def dot_S16x256x1_S16x256x1_S16x256x256_2_2_1_1_0_0 : DotDims S16x256x1 S16x256x1 S16x256x256 where
  lhsContracting := [2]
  rhsContracting := [2]
  lhsNonContracting := [1]
  rhsNonContracting := [1]
  lhsBatch := [0]
  rhsBatch := [0]
  wf := dot_S16x256x1_S16x256x1_S16x256x256_2_2_1_1_0_0_wf
def dot_S1024x65536_S65536x16_S1024x16_1_0_0_1_n_n : DotDims S1024x65536 S65536x16 S1024x16 where
  lhsContracting := [1]
  rhsContracting := [0]
  lhsNonContracting := [0]
  rhsNonContracting := [1]
  lhsBatch := []
  rhsBatch := []
  wf := dot_S1024x65536_S65536x16_S1024x16_1_0_0_1_n_n_wf

class Facts : Prop extends Facts₀ where

variable [Facts]
-- ==== Proof.Pieces.lean ====
/-
  What each control case of the kernel body leaves behind, as the body's own arithmetic.

  The body keeps a running [512, 16] accumulator in a scratch buffer. At the first step of a
  reduction run it stores zeros and then, like every other step, overwrites the accumulator with
  "accumulator + this step's partial product" of the current input block and weight block. At the
  last step of a run it also reads the finished accumulator back, adds the bias row, takes the
  softmax over the sixteen classes and stores that into the output block. So the accumulator a
  step leaves is the second payload applied to the two current blocks and to what the step found
  (zeros at a first step), and the output block a last step leaves is the third payload applied
  to that accumulator and the bias row. Each store covers its whole buffer, so reading the stores
  back gives exactly the stored payload.
-/
import proofs.«129879_j23124103922240_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem Idealize.ShloMosaic.Tactic

variable {F : FTy → Type} [FloatOps F]

theorem hz : (![0, 0] : Fin 2 → Nat) = fun _ => 0 := funext fun a => by fin_cases a <;> rfl

/-- A first step: the zero block is stored, read back, and the partial product added to it. -/
theorem sout_A (c : Dev nD) (i : grid0.Coords) (arg2 : Memref sig .tc .vmem S512x4096 .f32) (harg2 : arg2.IsWhole) (arg3 : Memref sig .tc .vmem S4096x16 .f32) (harg3 : arg3.IsWhole) (arg4 : Memref sig .tc .vmem S1x16 .f32) (harg4 : arg4.IsWhole) (arg5 : Memref sig .tc .vmem S512x16 .f32) (harg5 : arg5.IsWhole) (arg6 : Memref sig .tc .vmem S512x16 .f32) (harg6 : arg6.IsWhole) (hc0 : cond0_0 i) (hc1 : ¬cond0_1 i)
    (x0 : Vec F S512x4096 .f32) (x1 : Vec F S4096x16 .f32) (x2 : Vec F S1x16 .f32) :
    sout0_A_0 c i arg2 harg2 arg3 harg3 arg4 harg4 arg5 harg5 arg6 harg6 hc0 hc1 x0 x1 x2 = k0_pay2 x0 x1 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S512x16) hz, View.readCov_unit_zero (S := S512x16) _ hz]
  simp only [View.readAt_eq_ld, harg2.read_unread, harg3.read_unread, View.ld_unit_zero (S := S512x4096) hz,
    View.ld_unit_zero (S := S4096x16) hz]

/-- A middle step: the partial product is added to the accumulator the step before left. -/
theorem sout_B (c : Dev nD) (i : grid0.Coords) (arg2 : Memref sig .tc .vmem S512x4096 .f32) (harg2 : arg2.IsWhole) (arg3 : Memref sig .tc .vmem S4096x16 .f32) (harg3 : arg3.IsWhole) (arg4 : Memref sig .tc .vmem S1x16 .f32) (harg4 : arg4.IsWhole) (arg5 : Memref sig .tc .vmem S512x16 .f32) (harg5 : arg5.IsWhole) (arg6 : Memref sig .tc .vmem S512x16 .f32) (harg6 : arg6.IsWhole) (hc0 : ¬cond0_0 i) (hc1 : ¬cond0_1 i)
    (x0 : Vec F S512x4096 .f32) (x1 : Vec F S4096x16 .f32) (x2 : Vec F S1x16 .f32) (xs0 : Vec F S512x16 .f32) :
    sout0_B_0 c i arg2 harg2 arg3 harg3 arg4 harg4 arg5 harg5 arg6 harg6 hc0 hc1 x0 x1 x2 xs0 = k0_pay2 x0 x1 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz]
  simp only [View.readAt_eq_ld, harg2.read_unread, harg3.read_unread, harg6.read_unread,
    View.ld_unit_zero (S := S512x4096) hz, View.ld_unit_zero (S := S4096x16) hz, View.ld_unit_zero (S := S512x16) hz]

/-- A last step leaves the same kind of accumulator as a middle step … -/
theorem sout_C (c : Dev nD) (i : grid0.Coords) (arg2 : Memref sig .tc .vmem S512x4096 .f32) (harg2 : arg2.IsWhole) (arg3 : Memref sig .tc .vmem S4096x16 .f32) (harg3 : arg3.IsWhole) (arg4 : Memref sig .tc .vmem S1x16 .f32) (harg4 : arg4.IsWhole) (arg5 : Memref sig .tc .vmem S512x16 .f32) (harg5 : arg5.IsWhole) (arg6 : Memref sig .tc .vmem S512x16 .f32) (harg6 : arg6.IsWhole) (hc0 : ¬cond0_0 i) (hc1 : cond0_1 i)
    (x0 : Vec F S512x4096 .f32) (x1 : Vec F S4096x16 .f32) (x2 : Vec F S1x16 .f32) (xs0 : Vec F S512x16 .f32) :
    sout0_C_0 c i arg2 harg2 arg3 harg3 arg4 harg4 arg5 harg5 arg6 harg6 hc0 hc1 x0 x1 x2 xs0 = k0_pay2 x0 x1 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg3.read_unread, harg6.read_unread,
    View.ld_unit_zero (S := S512x4096) hz, View.ld_unit_zero (S := S4096x16) hz, View.ld_unit_zero (S := S512x16) hz]

/-- … and stores into the output block the bias-and-softmax of that finished accumulator. -/
theorem out_C (c : Dev nD) (i : grid0.Coords) (arg2 : Memref sig .tc .vmem S512x4096 .f32) (harg2 : arg2.IsWhole) (arg3 : Memref sig .tc .vmem S4096x16 .f32) (harg3 : arg3.IsWhole) (arg4 : Memref sig .tc .vmem S1x16 .f32) (harg4 : arg4.IsWhole) (arg5 : Memref sig .tc .vmem S512x16 .f32) (harg5 : arg5.IsWhole) (arg6 : Memref sig .tc .vmem S512x16 .f32) (harg6 : arg6.IsWhole) (hc0 : ¬cond0_0 i) (hc1 : cond0_1 i)
    (x0 : Vec F S512x4096 .f32) (x1 : Vec F S4096x16 .f32) (x2 : Vec F S1x16 .f32) (xs0 : Vec F S512x16 .f32) :
    out0_C_3 c i arg2 harg2 arg3 harg3 arg4 harg4 arg5 harg5 arg6 harg6 hc0 hc1 x0 x1 x2 xs0 = k0_pay3 (k0_pay2 x0 x1 xs0) x2 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg3.read_unread, harg4.read_unread, harg6.read_unread,
    View.readCov_unit_zero (S := S512x16) _ hz,
    View.ld_unit_zero (S := S512x4096) hz, View.ld_unit_zero (S := S4096x16) hz, View.ld_unit_zero (S := S512x16) hz,
    View.ld_unit_zero (S := S1x16) hz]

end Cert.KernelIdeal.Pieces

end
-- ==== Proof.Partial.lean ====
/-
  One reduction step of the kernel, index by index on the extended reals.

  The step's stored block is "what the accumulator held, plus the product of the current
  [512, 4096] input block with the current [4096, 16] weight block". Read at row `p` and class `q`
  that is the old entry plus the sum over the block's 4096 positions `j` of input (p, j) times
  weight (j, q): the narrowing of both operands to a shorter float format is the identity on the
  extended reals, and the product accumulates into a zero block, which adds nothing. The block a
  first step stores before accumulating is zero everywhere.
-/
import proofs.«129879_j23124103922240_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Partial

open Cert.KernelIdeal Cert.KernelIdeal.Gen Idealize.ShloMosaic Idealize.ShloMosaic.ValueIdx

/-! The product's operand indices at output index `i` and contraction index `k`: (row of `i`, `k`) on the left,
    (`k`, column of `i`) on the right. -/

theorem lhs_row (i : S512x16.Idx) (k : dot_S512x4096_S4096x16_S512x16_1_0_0_1_n_n.contr.Idx) :
    (dot_S512x4096_S4096x16_S512x16_1_0_0_1_n_n.lhsIdx i k 0).val = (i 0).val := by
  unfold DotDims.lhsIdx
  rw [dif_neg (show ¬(0 : Fin S512x4096.rank) ∈ dot_S512x4096_S4096x16_S512x16_1_0_0_1_n_n.lhsBatch by decide), dif_pos (show (0 : Fin S512x4096.rank) ∈ dot_S512x4096_S4096x16_S512x16_1_0_0_1_n_n.lhsNonContracting by decide)]
  rfl
theorem lhs_col (i : S512x16.Idx) (k : dot_S512x4096_S4096x16_S512x16_1_0_0_1_n_n.contr.Idx) :
    (dot_S512x4096_S4096x16_S512x16_1_0_0_1_n_n.lhsIdx i k 1).val = (k ⟨0, by decide⟩).val :=
  dot_S512x4096_S4096x16_S512x16_1_0_0_1_n_n.lhsIdx_val_of_single rfl i k
theorem rhs_row (i : S512x16.Idx) (k : dot_S512x4096_S4096x16_S512x16_1_0_0_1_n_n.contr.Idx) :
    (dot_S512x4096_S4096x16_S512x16_1_0_0_1_n_n.rhsIdx i k 0).val = (k ⟨0, by decide⟩).val :=
  dot_S512x4096_S4096x16_S512x16_1_0_0_1_n_n.rhsIdx_val_of_single rfl i k
theorem rhs_col (i : S512x16.Idx) (k : dot_S512x4096_S4096x16_S512x16_1_0_0_1_n_n.contr.Idx) :
    (dot_S512x4096_S4096x16_S512x16_1_0_0_1_n_n.rhsIdx i k 1).val = (i 1).val := by
  unfold DotDims.rhsIdx
  rw [dif_neg (show ¬(1 : Fin S4096x16.rank) ∈ dot_S512x4096_S4096x16_S512x16_1_0_0_1_n_n.rhsBatch by decide), dif_pos (show (1 : Fin S4096x16.rank) ∈ dot_S512x4096_S4096x16_S512x16_1_0_0_1_n_n.rhsNonContracting by decide)]
  rfl

/-- The block product into a zero accumulator, at (p, q): the sum over the 4096 positions. -/
theorem product_apply {φ₁ φ₂ : FTy} (l : FVec Ideal S512x4096 φ₁) (r : FVec Ideal S4096x16 φ₂) (p : Fin 512) (q : Fin 16) :
    matmul (F := Ideal) dot_S512x4096_S4096x16_S512x16_1_0_0_1_n_n none l r (constant (F := Ideal) S512x16 .f32 0x00000000#32) (ix2 p q)
      = ∑ j : Fin 4096, l (ix2 p j) * r (ix2 j q) := by
  simp only [matmul]
  rw [Ideal.matmul_constant_zero_apply, ← Equiv.sum_comp (ValueIdx.contrEquiv1 dot_S512x4096_S4096x16_S512x16_1_0_0_1_n_n 4096 rfl rfl).symm]
  refine Finset.sum_congr rfl fun k _ => ?_
  have hk := ValueIdx.contrEquiv1_symm_val dot_S512x4096_S4096x16_S512x16_1_0_0_1_n_n 4096 rfl rfl k
  have el : dot_S512x4096_S4096x16_S512x16_1_0_0_1_n_n.lhsIdx (ix2 p q) ((ValueIdx.contrEquiv1 dot_S512x4096_S4096x16_S512x16_1_0_0_1_n_n 4096 rfl rfl).symm k) = ix2 p k := funext fun a => Fin.ext (by
    match a with
    | ⟨0, _⟩ => exact lhs_row _ _
    | ⟨1, _⟩ => exact (lhs_col _ _).trans hk)
  have er : dot_S512x4096_S4096x16_S512x16_1_0_0_1_n_n.rhsIdx (ix2 p q) ((ValueIdx.contrEquiv1 dot_S512x4096_S4096x16_S512x16_1_0_0_1_n_n 4096 rfl rfl).symm k) = ix2 k q := funext fun a => Fin.ext (by
    match a with
    | ⟨0, _⟩ => exact (rhs_row _ _).trans hk
    | ⟨1, _⟩ => exact rhs_col _ _)
  rw [el, er]

/-- The block a first step stores before accumulating is zero everywhere. -/
theorem zero_apply (i : S512x16.Idx) : k0_pay1 (F := Ideal) i = 0 := by
  unfold k0_pay1
  simp only [shapeCast_self]
  exact Ideal.ofBits_zero_f32

/-- One step at (p, q): the old entry plus the sum, over the block's 4096 positions, of input times weight. -/
theorem step_apply (x0 : Vec Ideal S512x4096 .f32) (x1 : Vec Ideal S4096x16 .f32) (acc : Vec Ideal S512x16 .f32)
    (p : Fin 512) (q : Fin 16) :
    k0_pay2 (F := Ideal) x0 x1 acc (ix2 p q) = acc (ix2 p q) + ∑ j : Fin 4096, x0 (ix2 p j) * x1 (ix2 j q) := by
  unfold k0_pay2
  simp only [shapeCast_self]
  refine congrArg (acc (ix2 p q) + ·) ?_
  exact product_apply _ _ p q

end Cert.KernelIdeal.Partial

end
-- ==== Proof.Accumulate.lean ====
/-
  The accumulator the kernel carries across a reduction run.

  The grid's 32 points are two runs of 16 steps; a run starts at a point divisible by 16, where
  the accumulator is reset to zero before the step's partial product is added, and every later
  step of the run adds its own partial product to what the step before left. So after step
  `t` the accumulator holds, at each (row, class), zero plus the sum of the partial products of the
  steps `16·(t / 16), …, t` of its run: a sum over a range of steps, each addend a sum over the
  4096 positions of that step's input block times its weight block.
-/
import proofs.«129879_j23124103922240_1_alg».proof.Proof.Gen.KernelIdeal.Value
import proofs.«129879_j23124103922240_1_alg».proof.Proof.Pieces
import proofs.«129879_j23124103922240_1_alg».proof.Proof.Partial

noncomputable section

namespace Cert.KernelIdeal.Accumulate

open Cert.KernelIdeal Cert.KernelIdeal.Gen Cert.KernelIdeal.Value Idealize.ShloMosaic Idealize.ShloMosaic.TcCoe
  Idealize.ShloMosaic.ValueIdx Idealize.SL.Sem

variable (m : (ℓ : Loc nD τ sig) → Buf (Elt Ideal) ℓ)

/-- The input block, the weight block and the bias row a point works on, at their literal shapes. -/
abbrev xblk (c : Dev nD) (t : Fin cfg0.N) : Vec Ideal S512x4096 .f32 := iblk m c 0 t
abbrev wblk (c : Dev nD) (t : Fin cfg0.N) : Vec Ideal S4096x16 .f32 := iblk m c 1 t
abbrev bblk (c : Dev nD) (t : Fin cfg0.N) : Vec Ideal S1x16 .f32 := iblk m c 2 t

/-- Point `n`'s partial product at (row, class): the sum over its block's 4096 positions (zero past the grid). -/
def addend (c : Dev nD) (n : ℕ) (i : S512x16.Idx) : EReal :=
  if h : n < cfg0.N then ∑ j : Fin 4096, xblk m c ⟨n, h⟩ (ix2 (i 0) j) * wblk m c ⟨n, h⟩ (ix2 j (i 1)) else 0

/-- At the first step of a run the accumulator is left at zero plus the step's partial product, whatever it held. -/
theorem first_step (c : Dev nD) (n : ℕ) (h : n < cfg0.N) (h0 : n % 16 = 0) (acc : Vec Ideal S512x16 .f32) (i : S512x16.Idx) :
    scAt0_0 m c n h acc i = 0 + addend m c n i := by
  obtain ⟨p, q, rfl⟩ : ∃ (p : Fin 512) (q : Fin 16), i = ix2 p q := ⟨i 0, i 1, eq_ix2 i⟩
  have h1 : ¬n % 16 = 15 := by omega
  unfold scAt0_0
  rw [dif_pos h0, dif_neg h1, Pieces.sout_A]
  refine (Partial.step_apply _ _ _ p q).trans ?_
  rw [Partial.zero_apply]
  unfold addend
  rw [dif_pos h]

/-- At every later step of a run the step's partial product is added to what the accumulator held. -/
theorem later_step (c : Dev nD) (n : ℕ) (h : n < cfg0.N) (h0 : ¬n % 16 = 0) (acc : Vec Ideal S512x16 .f32) (i : S512x16.Idx) :
    scAt0_0 m c n h acc i = acc i + addend m c n i := by
  obtain ⟨p, q, rfl⟩ : ∃ (p : Fin 512) (q : Fin 16), i = ix2 p q := ⟨i 0, i 1, eq_ix2 i⟩
  unfold scAt0_0
  rw [dif_neg h0]
  by_cases h1 : n % 16 = 15
  · rw [dif_pos h1, Pieces.sout_C]
    refine (Partial.step_apply _ _ _ p q).trans ?_
    unfold addend
    rw [dif_pos h]
  · rw [dif_neg h1, Pieces.sout_B]
    refine (Partial.step_apply _ _ _ p q).trans ?_
    unfold addend
    rw [dif_pos h]

/-- After step `t`: zero plus the partial products of its run's steps up to `t`. -/
theorem scratch_apply (c : Dev nD) (t : Fin cfg0.N) (i : S512x16.Idx) :
    (outsAt0 m c t.val t.isLt).2 i
      = 0 + ∑ s ∈ Finset.range (t.val % 16 + 1), addend m c (16 * (t.val / 16) + s) i := by
  rw [soutsAt0_0_eq m c t]
  have hlt : t.val % 16 < 16 := Nat.mod_lt _ (by decide)
  exact Pipeline.accAt_add_apply (ι := S512x16.Idx) (β := EReal)
    (fun n h => scAt0_0 m c n h (VS0_0.read (Elt Ideal) VS0_0.junk)) (scAt0_0 m c) (fun _ => 0) (addend m c)
    (16 * (t.val / 16)) 15
    (fun h i => first_step m c _ h (Nat.mul_mod_right 16 _) _ i)
    (fun n h acc i hb he => later_step m c n h (by omega) acc i)
    (t.val % 16) (by omega) _ i

end Cert.KernelIdeal.Accumulate

end
-- ==== Proof.Blocks.lean ====
/-
  Where each grid point's blocks sit in the arrays.

  Point `t` of the 2 × 16 grid is batch tile `t / 16` at reduction step `t % 16`. Its input block is rows
  `512·(t / 16) …` and positions `4096·(t % 16) …` of the flattened input; its weight block is positions
  `4096·(t % 16) …` of the transposed weights, all sixteen classes; the bias row is the same at every point; and
  its output block is rows `512·(t / 16) …` of the result, all sixteen classes. A block's coordinate is always
  "block index × block size + coordinate inside the block".
-/
import proofs.«129879_j23124103922240_1_alg».proof.Proof.Accumulate

noncomputable section

namespace Cert.KernelIdeal.Blocks

open Cert.KernelIdeal Cert.KernelIdeal.Gen Cert.KernelIdeal.Accumulate Idealize.ShloMosaic Idealize.ShloMosaic.TcCoe
  Idealize.ShloMosaic.ValueIdx Idealize.SL.Sem

variable (m : (ℓ : Loc nD τ sig) → Buf (Elt Ideal) ℓ)

/-- The flattened input, the transposed weights and the bias row as the region finds them, at their literal shapes. -/
abbrev xarr (c : Dev nD) : S1024x65536.Idx → EReal := V m c main_v0
abbrev warr (c : Dev nD) : S65536x16.Idx → EReal := V m c main_v28
abbrev barr (c : Dev nD) : S1x16.Idx → EReal := V m c main_v29

/-- The printed index maps over the grid: tile and step of each window's block. -/
theorem idx_facts : ∀ t : Fin cfg0.N,
    win0_0.index t (0 : Fin 2) = t.val / 16 ∧ win0_0.index t (1 : Fin 2) = t.val % 16
    ∧ win0_1.index t (0 : Fin 2) = t.val % 16 ∧ win0_1.index t (1 : Fin 2) = 0
    ∧ win0_2.index t (0 : Fin 2) = 0 ∧ win0_2.index t (1 : Fin 2) = 0
    ∧ win0_3.index t (0 : Fin 2) = t.val / 16 ∧ win0_3.index t (1 : Fin 2) = 0 :=
  (by decide +kernel : ∀ t : Fin grid0.N, _)

/-- Entry (p, j) of point `t`'s input block is entry (512·(t / 16) + p, 4096·(t % 16) + j) of the flattened input. -/
theorem xblk_apply (c : Dev nD) (t : Fin cfg0.N) (p : Fin 512) (j : Fin 4096) (r : Fin 1024) (k : Fin 65536)
    (hr : r.val = 512 * (t.val / 16) + p.val) (hk : k.val = 4096 * (t.val % 16) + j.val) :
    xblk m c t (ix2 p j) = xarr m c (ix2 r k) := by
  obtain ⟨e0, e1, -⟩ := idx_facts t
  show V m c main_v0 (((cfg0.win 0).blk t).view.emb (ix2 p j)) = V m c main_v0 (ix2 r k)
  refine congrArg _ (funext fun a => Fin.ext ?_)
  match a with
  | ⟨0, _⟩ => show win0_0.index t (0 : Fin 2) * 512 + 1 * p.val = r.val; omega
  | ⟨1, _⟩ => show win0_0.index t (1 : Fin 2) * 4096 + 1 * j.val = k.val; omega

/-- Entry (j, q) of point `t`'s weight block is entry (4096·(t % 16) + j, q) of the transposed weights. -/
theorem wblk_apply (c : Dev nD) (t : Fin cfg0.N) (j : Fin 4096) (q : Fin 16) (k : Fin 65536)
    (hk : k.val = 4096 * (t.val % 16) + j.val) :
    wblk m c t (ix2 j q) = warr m c (ix2 k q) := by
  obtain ⟨-, -, e2, e3, -⟩ := idx_facts t
  show V m c main_v28 (((cfg0.win 1).blk t).view.emb (ix2 j q)) = V m c main_v28 (ix2 k q)
  refine congrArg _ (funext fun a => Fin.ext ?_)
  match a with
  | ⟨0, _⟩ => show win0_1.index t (0 : Fin 2) * 4096 + 1 * j.val = k.val; omega
  | ⟨1, _⟩ => show win0_1.index t (1 : Fin 2) * 16 + 1 * q.val = q.val; omega

/-- The bias row is the whole [1, 16] array at every point. -/
theorem bblk_apply (c : Dev nD) (t : Fin cfg0.N) (q : Fin 16) :
    bblk m c t (ix2 (0 : Fin 1) q) = barr m c (ix2 (0 : Fin 1) q) := by
  obtain ⟨-, -, -, -, e4, e5, -⟩ := idx_facts t
  show V m c main_v29 (((cfg0.win 2).blk t).view.emb (ix2 (0 : Fin 1) q)) = V m c main_v29 (ix2 (0 : Fin 1) q)
  refine congrArg _ (funext fun a => Fin.ext ?_)
  match a with
  | ⟨0, _⟩ => show win0_2.index t (0 : Fin 2) * 1 + 1 * 0 = 0; omega
  | ⟨1, _⟩ => show win0_2.index t (1 : Fin 2) * 16 + 1 * q.val = q.val; omega

/-- Entry (p, q) of point `t`'s output block is entry (512·(t / 16) + p, q) of the result. -/
theorem oblk_emb (t : Fin cfg0.N) (p : Fin 512) (q : Fin 16) (r : Fin 1024) (hr : r.val = 512 * (t.val / 16) + p.val) :
    ((cfg0.win 3).blk t).view.emb (ix2 p q) = (ix2 r q : S1024x16.Idx) := by
  obtain ⟨-, -, -, -, -, -, e6, e7⟩ := idx_facts t
  refine funext fun a => Fin.ext ?_
  match a with
  | ⟨0, _⟩ => show win0_3.index t (0 : Fin 2) * 512 + 1 * p.val = r.val; omega
  | ⟨1, _⟩ => show win0_3.index t (1 : Fin 2) * 16 + 1 * q.val = q.val; omega

end Cert.KernelIdeal.Blocks

end
-- ==== Proof.Regroup.lean ====
/-
  A sum over `n * m` consecutive naturals is the sum, over `n` consecutive blocks, of the sums over
  the `m` naturals of each block: the law that joins a contraction accumulated block by block to
  the same contraction taken whole. Only commutativity and associativity of addition are used, so
  it holds on the extended reals with no finiteness assumption.
-/
import Mathlib.Algebra.BigOperators.Fin

namespace Cert.Regroup

variable {β : Type*} [AddCommMonoid β]

/-- The first `n * m` terms, block by block: block `s` holds the terms `m * s, …, m * s + (m - 1)`. -/
theorem sum_range_mul (f : ℕ → β) (m : ℕ) :
    ∀ n : ℕ, ∑ i ∈ Finset.range (n * m), f i = ∑ s ∈ Finset.range n, ∑ j ∈ Finset.range m, f (m * s + j)
  | 0 => by simp
  | n + 1 => by
    rw [Nat.succ_mul, Finset.sum_range_add, sum_range_mul f m n, Finset.sum_range_succ, Nat.mul_comm n m]

/-- The same with the whole sum and each block's sum indexed by `Fin`. -/
theorem sum_fin_blocks (f : ℕ → β) (n m : ℕ) :
    ∑ j : Fin (n * m), f j.val = ∑ s ∈ Finset.range n, ∑ j : Fin m, f (m * s + j.val) := by
  rw [← Finset.sum_range (fun i => f i), sum_range_mul f m n]
  exact Finset.sum_congr rfl fun s _ => Finset.sum_range (fun j => f (m * s + j))

end Cert.Regroup
-- ==== Proof.Contraction.lean ====
/-
  The finished accumulator is the whole contraction.

  At the last step of a reduction run the accumulator holds zero plus the sixteen steps' partial
  products. Step `s` of the run covers the positions `4096·s, …, 4096·s + 4095` of the flattened
  input's row and of the weights' column, so the sixteen partial sums are the consecutive blocks
  of the one sum over all 65536 positions, and regrouping that sum block by block gives the
  equality. Nothing but the order and grouping of the additions differs.
-/
import proofs.«129879_j23124103922240_1_alg».proof.Proof.Blocks
import proofs.«129879_j23124103922240_1_alg».proof.Proof.Regroup

noncomputable section

namespace Cert.KernelIdeal.Contraction

open Cert.KernelIdeal Cert.KernelIdeal.Gen Cert.KernelIdeal.Accumulate Cert.KernelIdeal.Blocks Idealize.ShloMosaic
  Idealize.ShloMosaic.TcCoe Idealize.ShloMosaic.ValueIdx Idealize.SL.Sem

variable (m : (ℓ : Loc nD τ sig) → Buf (Elt Ideal) ℓ)

/-- After the last step `t` of a run, row `p` of the tile and class `q`: the contraction of the input's row
    `512·(t / 16) + p` with the weights' column `q` over all 65536 positions. -/
theorem acc_last (c : Dev nD) (t : Fin cfg0.N) (h15 : t.val % 16 = 15) (p : Fin 512) (q : Fin 16) (r : Fin 1024)
    (hr : r.val = 512 * (t.val / 16) + p.val) :
    (outsAt0 m c t.val t.isLt).2 (ix2 p q)
      = ∑ k : Fin 65536, xarr m c (ix2 r k) * warr m c (ix2 k q) := by
  have hN : cfg0.N = 32 := N_0
  have ht : t.val < 32 := lt_of_lt_of_eq t.isLt hN
  rw [scratch_apply, h15, zero_add]
  let f : ℕ → EReal := fun k =>
    if h : k < 65536 then xarr m c (ix2 r ⟨k, h⟩) * warr m c (ix2 ⟨k, h⟩ q) else 0
  have whole : ∑ k : Fin 65536, xarr m c (ix2 r k) * warr m c (ix2 k q)
      = ∑ k : Fin (16 * 4096), f k.val :=
    Finset.sum_congr rfl fun k _ => by
      show _ = (if h : k.val < 65536 then xarr m c (ix2 r ⟨k.val, h⟩) * warr m c (ix2 ⟨k.val, h⟩ q) else 0)
      rw [dif_pos k.isLt]
  rw [whole, Regroup.sum_fin_blocks f 16 4096]
  refine Finset.sum_congr rfl fun s hs => ?_
  have hs' : s < 16 := Finset.mem_range.mp hs
  have hn : 16 * (t.val / 16) + s < cfg0.N := by omega
  unfold addend
  rw [dif_pos hn]
  refine Finset.sum_congr rfl fun j _ => ?_
  have hj : j.val < 4096 := j.isLt
  have hk : 4096 * s + j.val < 65536 := by omega
  show xblk m c ⟨16 * (t.val / 16) + s, hn⟩ (ix2 p j) * wblk m c ⟨16 * (t.val / 16) + s, hn⟩ (ix2 j q) = f (4096 * s + j.val)
  rw [show f (4096 * s + j.val) = xarr m c (ix2 r ⟨4096 * s + j.val, hk⟩)
        * warr m c (ix2 ⟨4096 * s + j.val, hk⟩ q) from dif_pos hk]
  rw [xblk_apply m c ⟨16 * (t.val / 16) + s, hn⟩ p j r ⟨4096 * s + j.val, hk⟩
        (by show r.val = 512 * ((16 * (t.val / 16) + s) / 16) + p.val; omega)
        (by show 4096 * s + j.val = 4096 * ((16 * (t.val / 16) + s) % 16) + j.val; omega),
      wblk_apply m c ⟨16 * (t.val / 16) + s, hn⟩ j q ⟨4096 * s + j.val, hk⟩
        (by show 4096 * s + j.val = 4096 * ((16 * (t.val / 16) + s) % 16) + j.val; omega)]

end Cert.KernelIdeal.Contraction

end
-- ==== Proof.Arrays.lean ====
/-
  The three arrays the kernel region works on, as functions of the program's arguments.

  Before the region the kernel's host code reshapes the input to [1024, 65536], builds the
  [16, 65536] weight matrix from the two low-rank factor pairs and the sigmoid gate and transposes
  it, and reshapes the bias to one row. These are, operation for operation and literal for literal,
  the first operations of the reference program as well; so the flattened input and the transposed
  weights the region finds ARE the reference's own intermediate values of the same arguments, and
  the bias row at class `q` is the bias argument at `q`.
-/
import proofs.«129879_j23124103922240_1_alg».proof.Proof.Gen.KernelIdeal.Frame
import proofs.«129879_j23124103922240_1_alg».proof.Proof.Gen.ReferenceIdeal.Read
import Idealize.ShloMosaic.Lib.StableHlo.Run
import Idealize.ShloMosaic.Lib.ValueLayout

set_option maxRecDepth 16384

noncomputable section

namespace Cert.KernelIdeal.Arrays

open Cert.KernelIdeal Cert.KernelIdeal.Gen Idealize.ShloMosaic Idealize.ShloMosaic.TcCoe Idealize.ShloMosaic.ValueIdx Idealize.SL.Sem
  Idealize.ShloMosaic.StableHlo

variable (m : (ℓ : Loc nD τ sig) → Buf (Elt Ideal) ℓ)

/-- The flattened input the region finds is the reference's flattened input. -/
theorem input_eq (c : Dev nD) :
    (V m c main_v0 : S1024x65536.Idx → EReal)
      = Cert.ReferenceIdeal.Read.val_main_v0 (F := Ideal) (m ((c : Thread nD τ).loc main_arg0)) := by
  dsimp only [Gen.V, Gen.hostOps0]
  after_results
  rfl

set_option maxHeartbeats 4000000 in
/-- The transposed weights the region finds are the reference's transposed weights. -/
theorem weights_eq (c : Dev nD) :
    (V m c main_v28 : S65536x16.Idx → EReal)
      = Cert.ReferenceIdeal.Read.val_main_v28 (F := Ideal) (m ((c : Thread nD τ).loc main_arg1)) (m ((c : Thread nD τ).loc main_arg2)) (m ((c : Thread nD τ).loc main_arg3)) := by
  dsimp only [Gen.V, Gen.hostOps0]
  after_results
  rfl

/-- The bias row at class `q` is the bias argument at `q`. -/
theorem bias_apply (c : Dev nD) (q : Fin 16) :
    (V m c main_v29 : S1x16.Idx → EReal) (ix2 (0 : Fin 1) q) = m ((c : Thread nD τ).loc main_arg4) (ix1 q) := by
  have e : (V m c main_v29 : S1x16.Idx → EReal) = shapeCast S1x16 (m ((c : Thread nD τ).loc main_arg4)) shapeCasts_S16_S1x16 := by
    dsimp only [Gen.V, Gen.hostOps0]
    after_results
    rfl
  rw [e]
  exact shapeCast_a_1a_apply _ _ 0 q

end Cert.KernelIdeal.Arrays

end
-- ==== Proof.Scores.lean ====
/-
  The function both programs compute, index by index on the extended reals.

  For a batch row `r` and a class `c` the score is the contraction of row `r` of the flattened
  input with column `c` of the transposed weight matrix, over all 65536 positions, plus the
  class's bias. A row's result is the softmax of its sixteen scores as jax.nn.softmax spells it:
  the row maximum is taken from minus infinity and joined with minus infinity once more, every
  score has it subtracted, is exponentiated, and is divided by the sum of the row's sixteen
  exponentials.
-/
import Idealize.ShloMosaic.PureOps.Ideal
import Idealize.ShloMosaic.Lib.ValueIdx

noncomputable section

namespace Cert.Spec

open Idealize.ShloMosaic Idealize.ShloMosaic.ValueIdx

/-- The f32 word of minus infinity, as an extended real. -/
abbrev negInf : EReal := Ideal.ofBits .f32 0xFF800000#32

/-- A row's maximum: the fold of `max` from minus infinity over the sixteen scores, joined with minus infinity. -/
def rowMax (s : Fin 16 → EReal) : EReal :=
  max negInf ((Finset.univ : Finset (Fin 16)).fold max negInf s)

/-- The softmax of one row of sixteen scores, at class `q`. -/
def rowSoftmax (s : Fin 16 → EReal) (q : Fin 16) : EReal :=
  Ideal.div (Ideal.exp (s q - rowMax s)) (∑ k : Fin 16, Ideal.exp (s k - rowMax s))

/-- The score of batch row `r` for class `c`: the whole contraction, then the bias. -/
def scores (X : (⟨2, ![1024, 65536]⟩ : Shape).Idx → EReal) (W : (⟨2, ![65536, 16]⟩ : Shape).Idx → EReal)
    (b : Fin 16 → EReal) (r : Fin 1024) (c : Fin 16) : EReal :=
  (∑ j : Fin 65536, X (ix2 r j) * W (ix2 j c)) + b c

/-- The result array: the softmax of each batch row's scores. -/
def result (X : (⟨2, ![1024, 65536]⟩ : Shape).Idx → EReal) (W : (⟨2, ![65536, 16]⟩ : Shape).Idx → EReal)
    (b : Fin 16 → EReal) : (⟨2, ![1024, 16]⟩ : Shape).Idx → EReal :=
  fun i => rowSoftmax (scores X W b (i 0)) (i 1)

theorem result_apply (X : (⟨2, ![1024, 65536]⟩ : Shape).Idx → EReal) (W : (⟨2, ![65536, 16]⟩ : Shape).Idx → EReal)
    (b : Fin 16 → EReal) (r : Fin 1024) (q : Fin 16) :
    result X W b (ix2 r q) = rowSoftmax (scores X W b r) q := rfl

end Cert.Spec

end
-- ==== Proof.SoftmaxRow.lean ====
/-
  The kernel's last value, read at an index, is the specification's row softmax.

  The last value is built from the accumulated block A, of shape [512,16], and the bias row b, of
  shape [1,16]. The bias row is repeated over the 512 rows and added: the scores s(p,c) = A(p,c) + b(0,c).
  Along the sixteen lanes of each row p the maximum is taken from minus infinity and joined with minus
  infinity once more, giving m(p); it is turned into a column [512,1], repeated over the lanes and
  subtracted, and the differences are exponentiated: e(p,c) = exp (s(p,c) - m(p)). The lane sum
  z(p) = ∑ c, e(p,c) takes the same road back to [512,16], and the result is e(p,q) / z(p). Each
  step that is not pointwise (the lane maximum, the lane sum, a vector turned into a column, a column
  repeated over the lanes, a row repeated over the rows) is read at explicit coordinates below;
  together they say that the value at (p,q) is the softmax of row p's sixteen scores at q.
-/
import proofs.«129879_j23124103922240_1_alg».proof.Proof.Gen.KernelIdeal.Skeleton
import proofs.«129879_j23124103922240_1_alg».proof.Proof.Scores
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.SoftmaxRow
open Cert.KernelIdeal Cert.KernelIdeal.Gen Idealize.ShloMosaic Idealize.ShloMosaic.ValueIdx

/-- A vector of 512 entries turned into a [512,1] column reads, at (p, u), the vector's entry p: both
    indices have row-major position p, the unit coordinate u being 0. -/
theorem column_apply (x : S512.Idx → EReal) (h : S512.ShapeCasts S512x1) (p : Fin 512) (u : Fin 1) :
    shapeCast S512x1 x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- A [512,1] column repeated over sixteen lanes reads, at (p, c), the column's entry in row p: the
    row coordinate is kept (512 is not a unit extent) and the unit lane coordinate is 0. -/
theorem lanes_apply (v : S512x1.Idx → EReal) (h : S512x1.Broadcasts S512x16) (p : Fin 512) (c : Fin 16) :
    broadcastTo S512x16 v h (ix2 p c) = v (ix2 p (0 : Fin 1)) := by
  refine broadcastTo_apply v h (ix2 p c) (ix2 p (0 : Fin 1)) fun ax => ?_
  match ax with
  | ⟨0, _⟩ =>
    refine (if_neg ?_).symm
    show (512 : ℕ) ≠ 1
    decide
  | ⟨1, _⟩ => rfl

/-- A vector of 512 entries turned into a column and repeated over the lanes reads, at (p, c), the
    vector's entry p. -/
theorem spread_apply (m : S512.Idx → EReal) (hc : S512.ShapeCasts S512x1) (hb : S512x1.Broadcasts S512x16)
    (p : Fin 512) (c : Fin 16) :
    broadcastTo S512x16 (shapeCast S512x1 m hc) hb (ix2 p c) = m (ix1 p) :=
  (lanes_apply _ hb p c).trans (column_apply m hc p 0)

/-- The source index over row p with lane k inserted on the reduced axis is (p, k). -/
theorem lift_row (h : S512x16.Reduces [1] S512) (p : Fin 512) (k : Fin 16) :
    h.lift (ix1 p) k = ix2 p k := by
  funext c
  apply Fin.ext
  match c with
  | ⟨0, _⟩ => rfl
  | ⟨1, _⟩ => rfl

/-- The lane maximum of a [512,16] block from minus infinity, read at row p: the fold of max from
    minus infinity over the sixteen entries of row p. -/
theorem laneMax_apply (x : FVec Ideal S512x16 .f32) (h : S512x16.Reduces [1] S512)
    (hφ : FKind.Formats FTy.f32) (hacc : (0xFF800000#32 : BitVec FTy.f32.bits) = FKind.maximumf.neutral .f32 hφ)
    (p : Fin 512) :
    multiReduction (F := Ideal) .maximumf [1] S512 x 0xFF800000#32 h hφ hacc (ix1 p)
      = (Finset.univ : Finset (Fin 16)).fold max Cert.Spec.negInf (fun c => x (ix2 p c)) := by
  refine (Ideal.multiReduction_maximumf_single x _ h hφ hacc (ix1 p)).trans ?_
  have e : (x ∘ h.lift (ix1 p)) = fun c : Fin 16 => x (ix2 p c) :=
    funext fun k => congrArg x (lift_row h p k)
  rw [e]
  rfl

/-- The lane sum of a [512,16] block, read at row p: the sum of the sixteen entries of row p. -/
theorem laneSum_apply (x : FVec Ideal S512x16 .f32) (h : S512x16.Reduces [1] S512)
    (hφ : FKind.Formats FTy.f32) (hacc : (0x00000000#32 : BitVec FTy.f32.bits) = FKind.add.neutral .f32 hφ)
    (p : Fin 512) :
    multiReduction (F := Ideal) .add [1] S512 x 0x00000000#32 h hφ hacc (ix1 p)
      = ∑ c : Fin 16, x (ix2 p c) := by
  refine (Ideal.multiReduction_add_single x _ h hφ hacc (ix1 p)).trans ?_
  exact Finset.sum_congr rfl fun k _ => congrArg x (lift_row h p k)

/-- The lane maximum joined with minus infinity once more, read at row p, is the specification's row
    maximum of row p. -/
theorem rowMax_apply (s : FVec Ideal S512x16 .f32) (h : S512x16.Reduces [1] S512)
    (hφ : FKind.Formats FTy.f32) (hacc : (0xFF800000#32 : BitVec FTy.f32.bits) = FKind.maximumf.neutral .f32 hφ)
    (p : Fin 512) :
    maximumf (F := Ideal) (broadcast S512 (Scalar.ofBits (F := Ideal) .f32 0xFF800000#32))
        (multiReduction (F := Ideal) .maximumf [1] S512 s 0xFF800000#32 h hφ hacc) (ix1 p)
      = Cert.Spec.rowMax (fun c => s (ix2 p c)) := by
  rw [maximumf_apply, broadcast_apply, laneMax_apply]
  rfl

/-- Scores with a per-row shift m subtracted and exponentiated, divided by their lane sum. Where the
    shift is each row's maximum, the value at (p, q) is the softmax of row p at q. -/
theorem softmax_apply (s : FVec Ideal S512x16 .f32) (m : FVec Ideal S512 .f32)
    (hm : ∀ r : Fin 512, m (ix1 r) = Cert.Spec.rowMax (fun c => s (ix2 r c)))
    (hr : S512x16.Reduces [1] S512) (hφ : FKind.Formats FTy.f32)
    (hacc : (0x00000000#32 : BitVec FTy.f32.bits) = FKind.add.neutral .f32 hφ)
    (hc : S512.ShapeCasts S512x1) (hb : S512x1.Broadcasts S512x16) (p : Fin 512) (q : Fin 16) :
    divf (F := Ideal) (exp (subf s (broadcastTo S512x16 (shapeCast S512x1 m hc) hb)))
        (broadcastTo S512x16 (shapeCast S512x1
          (multiReduction (F := Ideal) .add [1] S512 (exp (subf s (broadcastTo S512x16 (shapeCast S512x1 m hc) hb)))
            0x00000000#32 hr hφ hacc) hc) hb) (ix2 p q)
      = Cert.Spec.rowSoftmax (fun c => s (ix2 p c)) q := by
  -- every shifted exponential of row p, in the specification's words
  have he : ∀ c : Fin 16, exp (F := Ideal) (subf s (broadcastTo S512x16 (shapeCast S512x1 m hc) hb)) (ix2 p c)
      = Ideal.exp (s (ix2 p c) - Cert.Spec.rowMax (fun k => s (ix2 p k))) := fun c => by
    show Ideal.exp (s (ix2 p c) - broadcastTo S512x16 (shapeCast S512x1 m hc) hb (ix2 p c)) = _
    rw [spread_apply, hm]
  rw [divf_apply, spread_apply, laneSum_apply, he q]
  unfold Cert.Spec.rowSoftmax
  exact congrArg (Ideal.div _) (Finset.sum_congr rfl fun c _ => he c)

/-- The kernel's last value at (p, q) is the softmax, at q, of row p's sixteen scores: the accumulated
    entry plus the class's bias. -/
theorem pay3_apply (v18 : Vec Ideal S512x16 .f32) (v19 : Vec Ideal S1x16 .f32) (p : Fin 512) (q : Fin 16) :
    k0_pay3 (F := Ideal) v18 v19 (ix2 p q)
      = Cert.Spec.rowSoftmax (fun c => v18 (ix2 p c) + v19 (ix2 (0 : Fin 1) c)) q := by
  unfold k0_pay3
  -- row p's scores: the bias row, cast to its own shape and repeated over the rows, added to the block
  have hs : (fun c : Fin 16 => addf (F := Ideal) (s := S512x16) (φ := .f32) v18
        (broadcastTo S512x16 (shapeCast S1x16 v19 shapeCasts_S1x16_S1x16) broadcasts_S1x16_S512x16) (ix2 p c))
      = fun c => v18 (ix2 p c) + v19 (ix2 (0 : Fin 1) c) :=
    funext fun c => by rw [addf_apply, shapeCast_self, broadcastTo_1b_ab_apply]
  refine (softmax_apply _ _ (fun r => rowMax_apply _ _ _ _ r) _ _ _ _ _ p q).trans ?_
  exact congrArg (fun s => Cert.Spec.rowSoftmax s q) hs

end Cert.KernelIdeal.SoftmaxRow

end
-- ==== Proof.KernelValue.lean ====
/-
  The kernel's result array is the specification, of the arrays the region finds.

  Only the last step of each reduction run writes an output block back: points 15 and 31, the two
  batch tiles. What such a point writes at (row p, class q) is the softmax, over the sixteen classes,
  of "finished accumulator + bias"; the finished accumulator is the whole contraction of the
  tile's row with each class's weight column, so the row of scores is the specification's row of
  scores for batch row 512·(tile) + p. The two tiles' blocks are rows 0–511 and 512–1023: together
  they cover the result array, which therefore ends holding the specification at every index.
-/
import proofs.«129879_j23124103922240_1_alg».proof.Proof.Contraction
import proofs.«129879_j23124103922240_1_alg».proof.Proof.Arrays
import proofs.«129879_j23124103922240_1_alg».proof.Proof.SoftmaxRow
import proofs.«129879_j23124103922240_1_alg».proof.Proof.Scores

set_option maxRecDepth 16384

noncomputable section

namespace Cert.KernelIdeal.RunValue

open Cert.KernelIdeal Cert.KernelIdeal.Gen Cert.KernelIdeal.Accumulate Cert.KernelIdeal.Blocks Idealize.ShloMosaic
  Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The specification at the arrays the region finds. -/
abbrev G (c : Dev nD) : S1024x16.Idx → EReal :=
  Cert.Spec.result (xarr m c) (warr m c) (fun q => barr m c (ix2 (0 : Fin 1) q))

/-- The output block is written back exactly at the last step of each reduction run. -/
theorem flush_iff : ∀ t : Fin cfg0.N, (cfg0.win 3).flush t = true ↔ t.val % 16 = 15 :=
  (by decide +kernel : ∀ t : Fin grid0.N, (cfg0.win 3).flush t = true ↔ t.val % 16 = 15)

/-- What a last step writes back is its block of the specification. -/
theorem flushed_eq (c : Dev nD) (t : Fin cfg0.N) (hf : (cfg0.win 3).flush t = true) :
    (dats m 0 c).flushed 3 t = ((cfg0.win 3).blk t).view.read (Elt Ideal) (G m c) := by
  have h15 : t.val % 16 = 15 := (flush_iff t).mp hf
  have h0 : ¬t.val % 16 = 0 := by omega
  have hN : cfg0.N = 32 := N_0
  have ht : t.val < 32 := lt_of_lt_of_eq t.isLt hN
  have hacc : k0_pay2 (F := Ideal) (iblk m c 0 t) (iblk m c 1 t) (outsAt0 m c (t.val - 1) (Nat.lt_of_le_of_lt (Nat.sub_le _ _) t.isLt)).2
      = (outsAt0 m c t.val t.isLt).2 := by
    rw [outsAt0_C m c t h0 h15]
    dsimp only
    rw [Pieces.sout_C]
  rw [Value.flushed3_C m c t h0 h15, Pieces.out_C, hacc]
  funext y
  obtain ⟨p, q, rfl⟩ : ∃ (p : Fin 512) (q : Fin 16), y = ix2 p q := ⟨y 0, y 1, eq_ix2 y⟩
  have hr : (⟨512 * (t.val / 16) + p.val, by have := p.isLt; omega⟩ : Fin 1024).val = 512 * (t.val / 16) + p.val := rfl
  rw [View.read_apply, cast_eq]
  show k0_pay3 (F := Ideal) (outsAt0 m c t.val t.isLt).2 (bblk m c t) (ix2 p q)
      = G m c (((cfg0.win 3).blk t).view.emb (ix2 p q))
  rw [oblk_emb t p q _ hr]
  show _ = Cert.Spec.result (xarr m c) (warr m c) (fun q => barr m c (ix2 (0 : Fin 1) q)) (ix2 _ q)
  rw [Cert.Spec.result_apply, SoftmaxRow.pay3_apply]
  refine congrArg (fun s => Cert.Spec.rowSoftmax s q) (funext fun c' => ?_)
  unfold Cert.Spec.scores
  rw [Contraction.acc_last m c t h15 p c' _ hr, bblk_apply]

/-- An index of the result is in point `t`'s block iff each coordinate is in the block's range on its axis. -/
theorem mem_blk (t : Fin cfg0.N) (i : S1024x16.Idx) :
    i ∈ ((cfg0.win 3).blk t).view.set ↔ ∀ a : Fin 2, win0_3.index t a * S512x16.size a ≤ (i a).val ∧ (i a).val < win0_3.index t a * S512x16.size a + S512x16.size a := by
  show i ∈ ((View.whole main_v30).slice (win0_3.rect t)).set ↔ _
  rw [View.set_slice_whole, Rect.mem_set_unit]
  exact Iff.rfl

/-- Every index of the result is in the block of its tile's last step. -/
theorem cover (i : S1024x16.Idx) :
    ∃ t : Fin cfg0.N, (cfg0.win 3).flush t = true ∧ i ∈ ((cfg0.win 3).blk t).view.set := by
  have hi0 : (i 0).val < 1024 := (i 0).isLt
  have hi1 : (i 1).val < 16 := (i 1).isLt
  have hN : cfg0.N = 32 := N_0
  have hlt : 16 * ((i 0).val / 512) + 15 < cfg0.N := by omega
  refine ⟨⟨16 * ((i 0).val / 512) + 15, hlt⟩, (flush_iff _).mpr (by show (16 * ((i 0).val / 512) + 15) % 16 = 15; omega), ?_⟩
  rw [mem_blk]
  obtain ⟨-, -, -, -, -, -, e6, e7⟩ := idx_facts ⟨16 * ((i 0).val / 512) + 15, hlt⟩
  have e6' : win0_3.index ⟨16 * ((i 0).val / 512) + 15, hlt⟩ (0 : Fin 2) = (16 * ((i 0).val / 512) + 15) / 16 := e6
  intro a
  match a with
  | ⟨0, _⟩ =>
    show win0_3.index ⟨16 * ((i 0).val / 512) + 15, hlt⟩ (0 : Fin 2) * 512 ≤ (i 0).val
      ∧ (i 0).val < win0_3.index ⟨16 * ((i 0).val / 512) + 15, hlt⟩ (0 : Fin 2) * 512 + 512
    omega
  | ⟨1, _⟩ =>
    show win0_3.index ⟨16 * ((i 0).val / 512) + 15, hlt⟩ (1 : Fin 2) * 16 ≤ (i 1).val
      ∧ (i 1).val < win0_3.index ⟨16 * ((i 0).val / 512) + 15, hlt⟩ (1 : Fin 2) * 16 + 16
    omega

/-- The result array after the run is the specification. -/
theorem final (c : Dev nD) : (dats m 0 c).arrAt 3 cfg0.N = G m c :=
  (dats m 0 c).arrAt_eq_of_cover 3 (G m c) (fun t hf => flushed_eq m c t hf) cover

/-- The specification at the arrays the region finds is the specification at the reference's own intermediate values
    of the program's arguments. -/
theorem G_eq (c : Dev nD) :
    G m c = Cert.Spec.result
      (Cert.ReferenceIdeal.Read.val_main_v0 (F := Ideal) (m ((c : Thread nD τ).loc main_arg0)))
      (Cert.ReferenceIdeal.Read.val_main_v28 (F := Ideal) (m ((c : Thread nD τ).loc main_arg1)) (m ((c : Thread nD τ).loc main_arg2)) (m ((c : Thread nD τ).loc main_arg3)))
      (fun q => m ((c : Thread nD τ).loc main_arg4) (ix1 q)) := by
  show Cert.Spec.result (xarr m c) (warr m c) (fun q => barr m c (ix2 (0 : Fin 1) q)) = _
  rw [show xarr m c = _ from Arrays.input_eq m c, show warr m c = _ from Arrays.weights_eq m c]
  exact congrArg _ (funext fun q => Arrays.bias_apply m c q)

/-- Every execution of the idealized kernel ends with the result array at the specification and the arguments unchanged. -/
theorem run : θ_run defs (onTc (τ := τ) (main (F := Ideal))) ⟨m, fun _ => 0, ρ⟩ fun r => ∀ c : Dev nD,
      r.2.mem ((c : Thread nD τ).loc main_v30) = Cert.Spec.result
          (Cert.ReferenceIdeal.Read.val_main_v0 (F := Ideal) (m ((c : Thread nD τ).loc main_arg0)))
          (Cert.ReferenceIdeal.Read.val_main_v28 (F := Ideal) (m ((c : Thread nD τ).loc main_arg1)) (m ((c : Thread nD τ).loc main_arg2)) (m ((c : Thread nD τ).loc main_arg3)))
          (fun q => m ((c : Thread nD τ).loc main_arg4) (ix1 q))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1.trans (final m c)).trans (G_eq m c), (h c).2⟩) (Value.run_blocks m ρ)

end Cert.KernelIdeal.RunValue

end
-- ==== Proof.RefValue.lean ====
/-
  The reference program's result is the specification's result array.

  Read one operation at a time, the reference computes, at batch row `r` and class `c`: the
  contraction of row `r` of the flattened input with column `c` of the transposed weights over all
  65536 positions, plus the bias of class `c` (the score); the fold of `max` from minus infinity
  over the row's sixteen scores, joined with minus infinity once more (the row maximum); the
  exponential of the score less the row maximum; the sum, from zero, of the row's sixteen
  exponentials; and the quotient of the exponential by that sum. On the extended reals every one of
  these operations is exact, so each step is an equality read index by index, and the steps chain
  to the softmax of the row's scores.
-/
import proofs.«129879_j23124103922240_1_alg».proof.Proof.Gen.ReferenceIdeal.Read
import proofs.«129879_j23124103922240_1_alg».proof.Proof.Scores
import Idealize.ShloMosaic.PureOps.Reduce
import Idealize.ShloMosaic.PureOps.Ideal
import Idealize.ShloMosaic.PureOps.Ideal.Laws
import Idealize.ShloMosaic.Lib.ValueIdx
import Mathlib.Tactic.FinCases

namespace Cert.ReferenceIdeal.RefValue

open Cert.ReferenceIdeal Cert.ReferenceIdeal.Gen Cert.ReferenceIdeal.Read Idealize.ShloMosaic Idealize.ShloMosaic.ValueIdx

/-- The score. The reference's sum of the contraction and the broadcast bias, read at row `r` and
    class `c`, is the specification's score: the contraction's left index is (r, k), its right index
    is (k, c), and the bias broadcast twice is read at class `c`. -/
theorem score_eq (x0 : (⟨S1024x256x256, .f32⟩ : BufTy).Contents (Elt Ideal)) (x1 : (⟨S16x64x8, .f32⟩ : BufTy).Contents (Elt Ideal))
    (x2 : (⟨S16x256x2, .f32⟩ : BufTy).Contents (Elt Ideal)) (x3 x4 : (⟨S16, .f32⟩ : BufTy).Contents (Elt Ideal))
    (r : Fin 1024) (c : Fin 16) :
    val_main_v32 (F := Ideal) x0 x1 x2 x3 x4 (ix2 r c)
      = Cert.Spec.scores (val_main_v0 (F := Ideal) x0) (val_main_v28 (F := Ideal) x1 x2 x3) (fun c => x4 (ix1 c)) r c := by
  rw [val_main_v32_apply, val_main_v29_apply, val_main_v31_apply, val_main_v30_apply]
  unfold Cert.Spec.scores
  have hl : ∀ k : Fin 65536, lidx_main_v29 (ix2 r c) k = ix2 r k := fun k =>
    funext fun a => Fin.ext (by match a with | ⟨0, _⟩ => rfl | ⟨1, _⟩ => rfl)
  have hr : ∀ k : Fin 65536, ridx_main_v29 (ix2 r c) k = ix2 k c := fun k =>
    funext fun a => Fin.ext (by match a with | ⟨0, _⟩ => rfl | ⟨1, _⟩ => rfl)
  have hb : idx_main_v30 (idx_main_v31 (ix2 r c)) = ix1 c :=
    funext fun a => Fin.ext (by match a with | ⟨0, _⟩ => rfl)
  simp only [hl, hr, hb, Ideal.addf_def]

/-- The row maximum. Maximum is commutative and associative, so the reduce over the class axis is,
    at row `r`, the fold of `max` from minus infinity over that row's sixteen entries; the row index
    with class `k` put back is (r, k). Joined with minus infinity once more it is the
    specification's row maximum of that row. -/
theorem rowMax_eq (x0 : (⟨S1024x256x256, .f32⟩ : BufTy).Contents (Elt Ideal)) (x1 : (⟨S16x64x8, .f32⟩ : BufTy).Contents (Elt Ideal))
    (x2 : (⟨S16x256x2, .f32⟩ : BufTy).Contents (Elt Ideal)) (x3 x4 : (⟨S16, .f32⟩ : BufTy).Contents (Elt Ideal))
    (r : Fin 1024) :
    val_main_v35 (F := Ideal) x0 x1 x2 x3 x4 (ix1 r)
      = Cert.Spec.rowMax (fun c => val_main_v32 (F := Ideal) x0 x1 x2 x3 x4 (ix2 r c)) := by
  have h : S1024x16.Reduces [1] S1024 := by decide
  rw [val_main_v35_apply, val_main_v34_apply, val_main_cst_3_apply]
  unfold val_main_v33 Cert.Spec.rowMax
  rw [Host.reduce_eq_fold_single FloatOps.maximumf _ _ Facts₀.reducesTo_S1024x16_S1024_d1 h Facts₀.h_S_, val_main_cst_2_apply]
  have hf : (val_main_v32 (F := Ideal) x0 x1 x2 x3 x4 ∘ h.lift (ix1 r))
      = fun c : Fin 16 => val_main_v32 (F := Ideal) x0 x1 x2 x3 x4 (ix2 r c) :=
    funext fun k => congrArg (val_main_v32 (F := Ideal) x0 x1 x2 x3 x4) (by funext c; apply Fin.ext; fin_cases c <;> rfl)
  rw [hf]
  rfl

/-- The exponential. At row `r` and class `c` the reference exponentiates the score less the row's
    maximum, the maximum having been broadcast back along the row. -/
theorem exp_eq (x0 : (⟨S1024x256x256, .f32⟩ : BufTy).Contents (Elt Ideal)) (x1 : (⟨S16x64x8, .f32⟩ : BufTy).Contents (Elt Ideal))
    (x2 : (⟨S16x256x2, .f32⟩ : BufTy).Contents (Elt Ideal)) (x3 x4 : (⟨S16, .f32⟩ : BufTy).Contents (Elt Ideal))
    (r : Fin 1024) (c : Fin 16) :
    val_main_v39 (F := Ideal) x0 x1 x2 x3 x4 (ix2 r c)
      = Ideal.exp (Cert.Spec.scores (val_main_v0 (F := Ideal) x0) (val_main_v28 (F := Ideal) x1 x2 x3) (fun c => x4 (ix1 c)) r c
          - Cert.Spec.rowMax (Cert.Spec.scores (val_main_v0 (F := Ideal) x0) (val_main_v28 (F := Ideal) x1 x2 x3) (fun c => x4 (ix1 c)) r)) := by
  rw [val_main_v39_apply, val_main_v38_apply, val_main_v37_apply, val_main_v36_apply]
  have hm : idx_main_v36 (idx_main_v37 (ix2 r c)) = ix1 r :=
    funext fun a => Fin.ext (by match a with | ⟨0, _⟩ => rfl)
  rw [hm, rowMax_eq, score_eq]
  have hs : (fun c => val_main_v32 (F := Ideal) x0 x1 x2 x3 x4 (ix2 r c))
      = Cert.Spec.scores (val_main_v0 (F := Ideal) x0) (val_main_v28 (F := Ideal) x1 x2 x3) (fun c => x4 (ix1 c)) r :=
    funext fun c => score_eq x0 x1 x2 x3 x4 r c
  rw [hs]
  simp only [Ideal.hostUnary_exp_def, Ideal.subf_def]

/-- The reference's result is the specification: each entry is the row's exponential divided by the
    sum, from zero, of the row's sixteen exponentials, the sum having been broadcast back along the row. -/
theorem result_eq (x0 : (⟨S1024x256x256, .f32⟩ : BufTy).Contents (Elt Ideal)) (x1 : (⟨S16x64x8, .f32⟩ : BufTy).Contents (Elt Ideal))
    (x2 : (⟨S16x256x2, .f32⟩ : BufTy).Contents (Elt Ideal)) (x3 x4 : (⟨S16, .f32⟩ : BufTy).Contents (Elt Ideal)) :
    val_main_v43 (F := Ideal) x0 x1 x2 x3 x4
      = Cert.Spec.result (val_main_v0 (F := Ideal) x0) (val_main_v28 (F := Ideal) x1 x2 x3) (fun c => x4 (ix1 c)) := by
  funext i
  obtain ⟨r, q, rfl⟩ : ∃ (r : Fin 1024) (q : Fin 16), i = ix2 r q := ⟨i 0, i 1, eq_ix2 i⟩
  rw [Cert.Spec.result_apply]
  unfold Cert.Spec.rowSoftmax
  rw [val_main_v43_apply, val_main_v42_apply, val_main_v41_apply, val_main_v40_apply, val_main_cst_4_apply]
  have hk : ∀ k : Fin 16, idx_main_v40 (idx_main_v41 (idx_main_v42 (ix2 r q))) k = ix2 r k := fun k =>
    funext fun a => Fin.ext (by match a with | ⟨0, _⟩ => rfl | ⟨1, _⟩ => rfl)
  simp only [hk, exp_eq, Ideal.hostDivf_def, Ideal.ofBits_def, Ideal.ofBits_zero_f32, zero_add]

end Cert.ReferenceIdeal.RefValue
-- ==== Proof.lean ====
/-
  A class-scoring head: the input f32[1024, 256, 256] is flattened to [1024, 65536] and multiplied by the
  transpose of a [16, 65536] weight matrix (two low-rank products mixed by a sigmoid gate), a bias is
  added, and each row's sixteen scores go through softmax.

  The kernel tiles the product over a 2 × 16 grid: two batch tiles of 512 rows, sixteen reduction steps
  of 4096 positions each. A [512, 16] accumulator is reset to zero at a tile's first step, gains one
  step's partial product at every step, and at the tile's last step has the bias added and the softmax
  taken into the tile's block of the result. The reference computes the whole product at once, then
  the bias and the softmax.

  On the extended reals the two are the same function of the arguments. The weight matrix, the
  flattened input and the bias are built by the very same operations in both programs. The narrowing of
  the product's operands to a shorter float format is the identity. Zero plus the sixteen partial sums
  is the one sum over all 65536 positions regrouped into consecutive blocks, and addition on the
  extended reals is commutative and associative with no condition on its arguments, so no finiteness
  is used. The lane maximum from minus infinity, the exponential, the lane sum from zero and the quotient
  are the same exact operations on both sides, read index by index.

  The three frames are the generated runs. The idealization rewrote nothing, so there is nothing to
  preserve. The algebraic claim sets the kernel's run beside the reference's run, both ending at
  the specification `Cert.Spec.result` of the same three arrays.
-/
import proofs.«129879_j23124103922240_1_alg».proof.Defs
import proofs.«129879_j23124103922240_1_alg».proof.Proof.Gen.Kernel
import proofs.«129879_j23124103922240_1_alg».proof.Proof.Gen.Kernel.Skeleton
import proofs.«129879_j23124103922240_1_alg».proof.Proof.Gen.Kernel.Launch
import proofs.«129879_j23124103922240_1_alg».proof.Proof.Gen.Kernel.Points
import proofs.«129879_j23124103922240_1_alg».proof.Proof.Gen.Kernel.Frame
import proofs.«129879_j23124103922240_1_alg».proof.Proof.Gen.KernelIdeal
import proofs.«129879_j23124103922240_1_alg».proof.Proof.Gen.KernelIdeal.Skeleton
import proofs.«129879_j23124103922240_1_alg».proof.Proof.Gen.KernelIdeal.Launch
import proofs.«129879_j23124103922240_1_alg».proof.Proof.Gen.KernelIdeal.Points
import proofs.«129879_j23124103922240_1_alg».proof.Proof.Gen.KernelIdeal.Frame
import proofs.«129879_j23124103922240_1_alg».proof.Proof.Gen.ReferenceIdeal
import proofs.«129879_j23124103922240_1_alg».proof.Proof.Gen.Pre_finite_inputs
import proofs.«129879_j23124103922240_1_alg».proof.Proof.Gen.KernelIdeal.Value
import proofs.«129879_j23124103922240_1_alg».proof.Proof.Gen.ReferenceIdeal.Run
import proofs.«129879_j23124103922240_1_alg».proof.Proof.Gen.ReferenceIdeal.Read
import proofs.«129879_j23124103922240_1_alg».proof.Proof.KernelValue
import proofs.«129879_j23124103922240_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs, and leaves its arguments alone. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs, from memories that agree on the arguments, end with the result array at the specification
    of the flattened input, the transposed weights and the bias: the kernel by its accumulated run, the reference
    operation by operation. -/
theorem algebraic : Cert.algebraic_KernelIdeal_ReferenceIdeal := by
  intro m ρ m' ρ' _ hagree
  refine ⟨_, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v43_eq, Cert.ReferenceIdeal.RefValue.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
